-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg3)) (v3 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_v2_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_v10) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8 : Shape := ⟨1, ![8]⟩
abbrev S8x64x512 : Shape := ⟨3, ![8, 64, 512]⟩
abbrev S8x256x64x256 : Shape := ⟨4, ![8, 256, 64, 256]⟩
abbrev S512x256 : Shape := ⟨2, ![512, 256]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S8x256x64x256 : S_.BroadcastsInDim S8x256x64x256 (![] : Fin 0 → Fin S8x256x64x256.rank)
  reducesTo_S8x256x64x256_S_d0_1_2_3 : S8x256x64x256.ReducesTo [0, 1, 2, 3] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg6 : FVec F S512 .f32) (main_arg7 : FVec F S1024x512 .f32) (main_arg8 : FVec F S1024 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x512 .f32 := Host.absf main_arg7
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x256x512 .f32) (main_arg1 : IVec S8 32) (main_arg2 : FVec F S8x64x512 .f32) (main_arg3 : IVec S8 32) (main_arg4 : FVec F S8x256x64x256 .f32) (main_arg5 : FVec F S512x256 .f32) (main_arg6 : FVec F S512 .f32) (main_arg7 : FVec F S1024x512 .f32) (main_arg8 : FVec F S1024 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg2
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S8x256x64x256 .f32 := Host.absf main_arg4
  let main_cst_2 : FVec F S_ .f32 := constant S_ .f32 0x7F800000#32
  let main_v10 : FVec F S8x256x64x256 .f32 := broadcastInDim S8x256x64x256 ![] bcast_S_S8x256x64x256 main_cst_2
  let main_v11 : IVec S8x256x64x256 1 := cmpf .olt main_v9 main_v10
  let main_c_3 : IVec S_ 1 := constantI S_ 1 1#1
  let main_v12 : IVec S_ 1 := (fun x v => Host.reduce IntOp.andi x v reducesTo_S8x256x64x256_S_d0_1_2_3 h_S_) main_v11 main_c_3
  let main_v13 : IVec S_ 1 := andi main_v8 main_v12
  let main_v14 : FVec F S512x256 .f32 := Host.absf main_arg5
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg6 main_arg7 main_arg8 main_v13 main_v16
-- ==== Kernel.lean ====
abbrev S8x256x512 : Shape := ⟨3, ![8, 256, 512]⟩
abbrev S8 : Shape := ⟨1, ![8]⟩
abbrev S8x64x512 : Shape := ⟨3, ![8, 64, 512]⟩
abbrev S8x256x64x256 : Shape := ⟨4, ![8, 256, 64, 256]⟩
abbrev S512x256 : Shape := ⟨2, ![512, 256]⟩
abbrev S512 : Shape := ⟨1, ![512]⟩
abbrev S1024x512 : Shape := ⟨2, ![1024, 512]⟩
abbrev S1024 : Shape := ⟨1, ![1024]⟩
abbrev S256x512 : Shape := ⟨2, ![256, 512]⟩
abbrev S512x1024 : Shape := ⟨2, ![512, 1024]⟩
abbrev S8x256x64x512 : Shape := ⟨4, ![8, 256, 64, 512]⟩
abbrev S8x256x64x1024 : Shape := ⟨4, ![8, 256, 64, 1024]⟩
abbrev S1x16x512 : Shape := ⟨3, ![1, 16, 512]⟩
abbrev S1x64x512 : Shape := ⟨3, ![1, 64, 512]⟩
abbrev S1x16x64x256 : Shape := ⟨4, ![1, 16, 64, 256]⟩
abbrev S1x16x64x512 : Shape := ⟨4, ![1, 16, 64, 512]⟩
abbrev S1x16x64x1024 : Shape := ⟨4, ![1, 16, 64, 1024]⟩
abbrev S16x512 : Shape := ⟨2, ![16, 512]⟩
abbrev S64x512 : Shape := ⟨2, ![64, 512]⟩
abbrev S16x1x512 : Shape := ⟨3, ![16, 1, 512]⟩
abbrev S16x64x512 : Shape := ⟨3, ![16, 64, 512]⟩
abbrev S16x64x256 : Shape := ⟨3, ![16, 64, 256]⟩
abbrev S1024x256 : Shape := ⟨2, ![1024, 256]⟩
abbrev S1x1x512 : Shape := ⟨3, ![1, 1, 512]⟩
abbrev S1024x1024 : Shape := ⟨2, ![1024, 1024]⟩
abbrev S16x64x1024 : Shape := ⟨3, ![16, 64, 1024]⟩
abbrev S1x1x1024 : Shape := ⟨3, ![1, 1, 1024]⟩

abbrev nBuf : Space → Nat
  | .hbm => 13
  | .vmem => 14
  | .smem => 0
  | _ => 0

abbrev bufTy : (tb : Table) → Fin (tcTables nBuf tb) → BufTy
  | .hbm, ⟨0, _⟩ => ⟨S8x256x512, .f32⟩
  | .hbm, ⟨1, _⟩ => ⟨S8, .i32⟩
  | .hbm, ⟨2, _⟩ => ⟨S8x64x512, .f32⟩
  | .hbm, ⟨3, _⟩ => ⟨S8, .i32⟩
  | .hbm, ⟨4, _⟩ => ⟨S8x256x64x256, .f32⟩
  | .hbm, ⟨5, _⟩ => ⟨S512x256, .f32⟩
  | .hbm, ⟨6, _⟩ => ⟨S512, .f32⟩
  | .hbm, ⟨7, _⟩ => ⟨S1024x512, .f32⟩
  | .hbm, ⟨8, _⟩ => ⟨S1024, .f32⟩
  | .hbm, ⟨9, _⟩ => ⟨S256x512, .f32⟩
  | .hbm, ⟨10, _⟩ => ⟨S512x1024, .f32⟩
  | .hbm, ⟨11, _⟩ => ⟨S8x256x64x512, .f32⟩
  | .hbm, ⟨12, _⟩ => ⟨S8x256x64x1024, .f32⟩
  | .local _ .vmem, ⟨0, _⟩ => ⟨S1x16x512, .f32⟩
  | .local _ .vmem, ⟨1, _⟩ => ⟨S1x16x512, .f32⟩
  | .local _ .vmem, ⟨2, _⟩ => ⟨S1x64x512, .f32⟩
  | .local _ .vmem, ⟨3, _⟩ => ⟨S1x64x512, .f32⟩
  | .local _ .vmem, ⟨4, _⟩ => ⟨S1x16x64x256, .f32⟩
  | .local _ .vmem, ⟨5, _⟩ => ⟨S1x16x64x256, .f32⟩
  | .local _ .vmem, ⟨6, _⟩ => ⟨S256x512, .f32⟩
  | .local _ .vmem, ⟨7, _⟩ => ⟨S512, .f32⟩
  | .local _ .vmem, ⟨8, _⟩ => ⟨S512x1024, .f32⟩
  | .local _ .vmem, ⟨9, _⟩ => ⟨S1024, .f32⟩
  | .local _ .vmem, ⟨10, _⟩ => ⟨S1x16x64x512, .f32⟩
  | .local _ .vmem, ⟨11, _⟩ => ⟨S1x16x64x512, .f32⟩
  | .local _ .vmem, ⟨12, _⟩ => ⟨S1x16x64x1024, .f32⟩
  | .local _ .vmem, ⟨13, _⟩ => ⟨S1x16x64x1024, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  transposes_S512x256_S256x512_1_0 : S512x256.Transposes [1, 0] S256x512
  transposes_S1024x512_S512x1024_1_0 : S1024x512.Transposes [1, 0] S512x1024
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S16x512_S16x1x512 : S16x512.ShapeCasts S16x1x512
  shapeCasts_S64x512_S1x64x512 : S64x512.ShapeCasts S1x64x512
  broadcasts_S16x1x512_S16x64x512 : S16x1x512.Broadcasts S16x64x512
  broadcasts_S1x64x512_S16x64x512 : S1x64x512.Broadcasts S16x64x512
  inb_S1x16x64x256_S1x16x64x256_0_0_0_0 : ∀ a, (![0, 0, 0, 0] : Fin 4 → Nat) a + S1x16x64x256.size a ≤ S1x16x64x256.size a
  h_S1x16x64x256 : 0 < S1x16x64x256.numel
  shapeCasts_S1x16x64x256_S16x64x256 : S1x16x64x256.ShapeCasts S16x64x256
  bitsLt_bf16_f32 : FTy.bits .bf16 < FTy.bits .f32
  shapeCasts_S16x64x256_S1024x256 : S16x64x256.ShapeCasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S1024x512_S16x64x512 : S1024x512.ShapeCasts S16x64x512
  inb_S512_S512_0 : ∀ a, (![0] : Fin 1 → Nat) a + S512.size a ≤ S512.size a
  h_S512 : 0 < S512.numel
  shapeCasts_S512_S1x1x512 : S512.ShapeCasts S1x1x512
  broadcasts_S1x1x512_S16x64x512 : S1x1x512.Broadcasts S16x64x512
  inb_S1x16x64x512_S1x16x64x512_0_0_0_0 : ∀ a, (![0, 0, 0, 0] : Fin 4 → Nat) a + S1x16x64x512.size a ≤ S1x16x64x512.size a
  h_S1x16x64x512 : 0 < S1x16x64x512.numel
  shapeCasts_S1x16x64x512_S16x64x512 : S1x16x64x512.ShapeCasts S16x64x512
  shapeCasts_S16x64x512_S1x16x64x512 : S16x64x512.ShapeCasts S1x16x64x512
  shapeCasts_S16x64x512_S1024x512 : S16x64x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S1024x1024_S16x64x1024 : S1024x1024.ShapeCasts S16x64x1024
  inb_S1024_S1024_0 : ∀ a, (![0] : Fin 1 → Nat) a + S1024.size a ≤ S1024.size a
  h_S1024 : 0 < S1024.numel
  shapeCasts_S1024_S1x1x1024 : S1024.ShapeCasts S1x1x1024
  broadcasts_S1x1x1024_S16x64x1024 : S1x1x1024.Broadcasts S16x64x1024
  inb_S1x16x64x1024_S1x16x64x1024_0_0_0_0 : ∀ a, (![0, 0, 0, 0] : Fin 4 → Nat) a + S1x16x64x1024.size a ≤ S1x16x64x1024.size a
  h_S1x16x64x1024 : 0 < S1x16x64x1024.numel
  shapeCasts_S1x16x64x1024_S16x64x1024 : S1x16x64x1024.ShapeCasts S16x64x1024
  shapeCasts_S16x64x1024_S1x16x64x1024 : S16x64x1024.ShapeCasts S1x16x64x1024
  dot_S1024x256_S256x512_S1024x512_1_0_0_1_n_n_wf : DotDims.WF S1024x256 S256x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S8x256x512.size a
  hwx0_0 : ∀ i : grid0.Coords, EltTy.bits .f32 = 32 ∨ (Rect.block (s := S8x256x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x64x256.size a ≤ S8x256x64x256.size a
  hwx0_2 : ∀ i : grid0.Coords, EltTy.bits .f32 = 32 ∨ (Rect.block (s := S8x256x64x256) S1x16x64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .f32 = 32 ∨ (Rect.block (s := S512x1024) S512x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x64x512.size a ≤ S8x256x64x512.size a
  hwx0_7 : ∀ i : grid0.Coords, EltTy.bits .f32 = 32 ∨ (Rect.block (s := S8x256x64x512) S1x16x64x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x64x1024.size a ≤ S8x256x64x1024.size a
  hwx0_8 : ∀ i : grid0.Coords, EltTy.bits .f32 = 32 ∨ (Rect.block (s := S8x256x64x1024) S1x16x64x1024.size (cc0_transform_8 i) (hinb0_8 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x16x64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S1x16x64x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S1x16x64x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8 : Shape := ⟨1, ![8]⟩
abbrev S8x64x512 : Shape := ⟨3, ![8, 64, 512]⟩
abbrev S8x256x64x256 : Shape := ⟨4, ![8, 256, 64, 256]⟩
abbrev S512x256 : Shape := ⟨2, ![512, 256]⟩
abbrev S512 : Shape := ⟨1, ![512]⟩
abbrev S1024x512 : Shape := ⟨2, ![1024, 512]⟩
abbrev S1024 : Shape := ⟨1, ![1024]⟩
abbrev S8x256x1x512 : Shape := ⟨4, ![8, 256, 1, 512]⟩
abbrev S8x1x64x512 : Shape := ⟨4, ![8, 1, 64, 512]⟩
abbrev S8x256x64x512 : Shape := ⟨4, ![8, 256, 64, 512]⟩
abbrev S1x1x1x512 : Shape := ⟨4, ![1, 1, 1, 512]⟩
abbrev S_ : Shape := ⟨0, ![]⟩
abbrev S8x256x64x1024 : Shape := ⟨4, ![8, 256, 64, 1024]⟩
abbrev S1x1x1x1024 : Shape := ⟨4, ![1, 1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8, .i32⟩
  | .hbm, ⟨2, _⟩ => ⟨S8x64x512, .f32⟩
  | .hbm, ⟨3, _⟩ => ⟨S8, .i32⟩
  | .hbm, ⟨4, _⟩ => ⟨S8x256x64x256, .f32⟩
  | .hbm, ⟨5, _⟩ => ⟨S512x256, .f32⟩
  | .hbm, ⟨6, _⟩ => ⟨S512, .f32⟩
  | .hbm, ⟨7, _⟩ => ⟨S1024x512, .f32⟩
  | .hbm, ⟨8, _⟩ => ⟨S1024, .f32⟩
  | .hbm, ⟨9, _⟩ => ⟨S8x256x1x512, .f32⟩
  | .hbm, ⟨10, _⟩ => ⟨S8x1x64x512, .f32⟩
  | .hbm, ⟨11, _⟩ => ⟨S8x256x64x512, .f32⟩
  | .hbm, ⟨12, _⟩ => ⟨S8x256x64x512, .f32⟩
  | .hbm, ⟨13, _⟩ => ⟨S8x256x64x512, .f32⟩
  | .hbm, ⟨14, _⟩ => ⟨S8x256x64x512, .f32⟩
  | .hbm, ⟨15, _⟩ => ⟨S8x256x64x512, .f32⟩
  | .hbm, ⟨16, _⟩ => ⟨S1x1x1x512, .f32⟩
  | .hbm, ⟨17, _⟩ => ⟨S8x256x64x512, .f32⟩
  | .hbm, ⟨18, _⟩ => ⟨S8x256x64x512, .f32⟩
  | .hbm, ⟨19, _⟩ => ⟨S_, .f32⟩
  | .hbm, ⟨20, _⟩ => ⟨S8x256x64x512, .f32⟩
  | .hbm, ⟨21, _⟩ => ⟨S8x256x64x512, .f32⟩
  | .hbm, ⟨22, _⟩ => ⟨S8x256x64x1024, .f32⟩
  | .hbm, ⟨23, _⟩ => ⟨S1x1x1x1024, .f32⟩
  | .hbm, ⟨24, _⟩ => ⟨S8x256x64x1024, .f32⟩
  | .hbm, ⟨25, _⟩ => ⟨S8x256x64x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_cst : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S8x256x512_S8x256x1x512_0_1_3 : S8x256x512.BroadcastsInDim S8x256x1x512 (![0, 1, 3] : Fin 3 → Fin S8x256x1x512.rank)
  bcast_S8x64x512_S8x1x64x512_0_2_3 : S8x64x512.BroadcastsInDim S8x1x64x512 (![0, 2, 3] : Fin 3 → Fin S8x1x64x512.rank)
  bcast_S8x256x1x512_S8x256x64x512_0_1_2_3 : S8x256x1x512.BroadcastsInDim S8x256x64x512 (![0, 1, 2, 3] : Fin 4 → Fin S8x256x64x512.rank)
  bcast_S8x1x64x512_S8x256x64x512_0_1_2_3 : S8x1x64x512.BroadcastsInDim S8x256x64x512 (![0, 1, 2, 3] : Fin 4 → Fin S8x256x64x512.rank)
  bcast_S512_S1x1x1x512_3 : S512.BroadcastsInDim S1x1x1x512 (![3] : Fin 1 → Fin S1x1x1x512.rank)
  bcast_S1x1x1x512_S8x256x64x512_0_1_2_3 : S1x1x1x512.BroadcastsInDim S8x256x64x512 (![0, 1, 2, 3] : Fin 4 → Fin S8x256x64x512.rank)
  bcast_S_S8x256x64x512 : S_.BroadcastsInDim S8x256x64x512 (![] : Fin 0 → Fin S8x256x64x512.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x64x256_S512x256_S8x256x64x512_3_1_012_0_n_n_wf : DotDims.WF S8x256x64x256 S512x256 S8x256x64x512 [3] [1] [0, 1, 2] [0] [] []
  dot_S8x256x64x512_S1024x512_S8x256x64x1024_3_1_012_0_n_n_wf : DotDims.WF S8x256x64x512 S1024x512 S8x256x64x1024 [3] [1] [0, 1, 2] [0] [] []

variable [Facts₀]

def dot_S8x256x64x256_S512x256_S8x256x64x512_3_1_012_0_n_n : DotDims S8x256x64x256 S512x256 S8x256x64x512 where
  lhsContracting := [3]
  rhsContracting := [1]
  lhsNonContracting := [0, 1, 2]
  rhsNonContracting := [0]
  lhsBatch := []
  rhsBatch := []
  wf := dot_S8x256x64x256_S512x256_S8x256x64x512_3_1_012_0_n_n_wf
def dot_S8x256x64x512_S1024x512_S8x256x64x1024_3_1_012_0_n_n : DotDims S8x256x64x512 S1024x512 S8x256x64x1024 where
  lhsContracting := [3]
  rhsContracting := [1]
  lhsNonContracting := [0, 1, 2]
  rhsNonContracting := [0]
  lhsBatch := []
  rhsBatch := []
  wf := dot_S8x256x64x512_S1024x512_S8x256x64x1024_3_1_012_0_n_n_wf

class Facts : Prop extends Facts₀ where

variable [Facts]
-- ==== Proof.TileLayout.lean ====
/-
  One grid point works on a tile of 16 source frames against all 64 target positions. Its body re-lays the blocks it
  loads before and after the two matrix products: a block `[1, 16, …]` loses its unit batch axis, the source rows are
  repeated along the target axis and the target rows along the source axis, the pair `(r, u)` of a frame of the tile and
  a target position is flattened to the matrix row `64 r + u`, and a bias vector is repeated over every row. Each lemma
  here reads one such chain at an index: the value found there is one entry of the loaded block.
-/
import Idealize.ShloMosaic.PureOps.Ideal
import Idealize.ShloMosaic.Lib.ValueIdx
import Idealize.ShloMosaic.Lib.Pipeline.Value

noncomputable section

namespace Cert.Joint

open Idealize.ShloMosaic Idealize.ShloMosaic.ValueIdx

variable {α : Type}

/-- The matrix row of the pair (frame `r` of the tile, target position `u`). -/
abbrev flatRow (r : Fin 16) (u : Fin 64) : Fin 1024 :=
  ⟨r.val * 64 + u.val, by have := r.isLt; have := u.isLt; omega⟩

/-- The source block, repeated along the target axis, read at `(r, u, d)`: the block's entry `(0, r, d)`. -/
theorem srcRepeat_apply (x : (⟨3, ![1, 16, 512]⟩ : Shape).Idx → α)
    (h1 : (⟨3, ![1, 16, 512]⟩ : Shape).ShapeCasts ⟨2, ![16, 512]⟩)
    (h2 : (⟨2, ![16, 512]⟩ : Shape).ShapeCasts ⟨3, ![16, 1, 512]⟩)
    (h3 : (⟨3, ![16, 1, 512]⟩ : Shape).Broadcasts ⟨3, ![16, 64, 512]⟩)
    (r : Fin 16) (u : Fin 64) (d : Fin 512) :
    broadcastTo ⟨3, ![16, 64, 512]⟩ (shapeCast ⟨3, ![16, 1, 512]⟩ (shapeCast ⟨2, ![16, 512]⟩ x h1) h2) h3 (ix3 r u d)
      = x (ix3 0 r d) := by
  refine (broadcastTo_apply _ h3 (ix3 r u d) (ix3 r 0 d) (fun a => match a with
    | ⟨0, _⟩ => by show r.val = if (16 : Nat) = 1 then 0 else r.val; rw [if_neg (by decide)]
    | ⟨1, _⟩ => by show 0 = if (1 : Nat) = 1 then 0 else u.val; rw [if_pos rfl]
    | ⟨2, _⟩ => by show d.val = if (512 : Nat) = 1 then 0 else d.val; rw [if_neg (by decide)])).trans ?_
  refine (shapeCast_apply _ h2 (ix3 r 0 d) (ix2 r d) (by
    rw [Shape.rowMajor_val_two, Shape.rowMajor_val_three]
    show r.val * 512 + d.val = (r.val * 1 + 0) * 512 + d.val; omega)).trans ?_
  exact shapeCast_apply _ h1 (ix2 r d) (ix3 0 r d) (by
    rw [Shape.rowMajor_val_three, Shape.rowMajor_val_two]
    show (0 * 16 + r.val) * 512 + d.val = r.val * 512 + d.val; omega)

/-- The target block, repeated along the source axis, read at `(r, u, d)`: the block's entry `(0, u, d)`. -/
theorem tgtRepeat_apply (x : (⟨3, ![1, 64, 512]⟩ : Shape).Idx → α)
    (h1 : (⟨3, ![1, 64, 512]⟩ : Shape).ShapeCasts ⟨2, ![64, 512]⟩)
    (h2 : (⟨2, ![64, 512]⟩ : Shape).ShapeCasts ⟨3, ![1, 64, 512]⟩)
    (h3 : (⟨3, ![1, 64, 512]⟩ : Shape).Broadcasts ⟨3, ![16, 64, 512]⟩)
    (r : Fin 16) (u : Fin 64) (d : Fin 512) :
    broadcastTo ⟨3, ![16, 64, 512]⟩ (shapeCast ⟨3, ![1, 64, 512]⟩ (shapeCast ⟨2, ![64, 512]⟩ x h1) h2) h3 (ix3 r u d)
      = x (ix3 0 u d) := by
  rw [shapeCast_shapeCast x h1 h2]
  exact broadcastTo_apply _ h3 (ix3 r u d) (ix3 0 u d) (fun a => match a with
    | ⟨0, _⟩ => by show 0 = if (1 : Nat) = 1 then 0 else r.val; rw [if_pos rfl]
    | ⟨1, _⟩ => by show u.val = if (64 : Nat) = 1 then 0 else u.val; rw [if_neg (by decide)]
    | ⟨2, _⟩ => by show d.val = if (512 : Nat) = 1 then 0 else d.val; rw [if_neg (by decide)])

/-- A bias vector of length `n` repeated over the `16 × 64` rows, read at `(r, u, d)`: its entry `d`. -/
theorem biasRepeat_apply {n : Nat} (hn : n ≠ 1) (x : (⟨1, ![n]⟩ : Shape).Idx → α)
    (h1 : (⟨1, ![n]⟩ : Shape).ShapeCasts ⟨3, ![1, 1, n]⟩)
    (h2 : (⟨3, ![1, 1, n]⟩ : Shape).Broadcasts ⟨3, ![16, 64, n]⟩)
    (r : Fin 16) (u : Fin 64) (d : Fin n) :
    broadcastTo ⟨3, ![16, 64, n]⟩ (shapeCast ⟨3, ![1, 1, n]⟩ x h1) h2 (ix3 r u d) = x (ix1 d) := by
  refine (broadcastTo_apply _ h2 (ix3 r u d) (ix3 0 0 d) (fun a => match a with
    | ⟨0, _⟩ => by show 0 = if (1 : Nat) = 1 then 0 else r.val; rw [if_pos rfl]
    | ⟨1, _⟩ => by show 0 = if (1 : Nat) = 1 then 0 else u.val; rw [if_pos rfl]
    | ⟨2, _⟩ => by show d.val = if n = 1 then 0 else d.val; rw [if_neg hn])).trans ?_
  exact shapeCast_apply _ h1 (ix3 0 0 d) (ix1 d) (by
    rw [Shape.rowMajor_val_one, Shape.rowMajor_val_three]
    show d.val = (0 * 1 + 0) * n + d.val; omega)

/-- A matrix `[1024, n]` viewed as `[16, 64, n]`, read at `(r, u, d)`: the matrix at row `64 r + u`, column `d`. -/
theorem unflatten_apply {n : Nat} (x : (⟨2, ![1024, n]⟩ : Shape).Idx → α)
    (h : (⟨2, ![1024, n]⟩ : Shape).ShapeCasts ⟨3, ![16, 64, n]⟩) (r : Fin 16) (u : Fin 64) (d : Fin n) :
    shapeCast ⟨3, ![16, 64, n]⟩ x h (ix3 r u d) = x (ix2 (flatRow r u) d) :=
  shapeCast_apply _ h (ix3 r u d) (ix2 (flatRow r u) d) (by
    rw [Shape.rowMajor_val_two, Shape.rowMajor_val_three]
    show (r.val * 64 + u.val) * n + d.val = (r.val * 64 + u.val) * n + d.val; rfl)

/-- A tile `[16, 64, n]` flattened to the matrix `[1024, n]`, read at row `64 r + u`, column `d`: the tile at `(r, u, d)`. -/
theorem flatten_apply {n : Nat} (x : (⟨3, ![16, 64, n]⟩ : Shape).Idx → α)
    (h : (⟨3, ![16, 64, n]⟩ : Shape).ShapeCasts ⟨2, ![1024, n]⟩) (r : Fin 16) (u : Fin 64) (d : Fin n) :
    shapeCast ⟨2, ![1024, n]⟩ x h (ix2 (flatRow r u) d) = x (ix3 r u d) :=
  shapeCast_apply _ h (ix2 (flatRow r u) d) (ix3 r u d) (by
    rw [Shape.rowMajor_val_three, Shape.rowMajor_val_two]
    show (r.val * 64 + u.val) * n + d.val = (r.val * 64 + u.val) * n + d.val; rfl)

/-- A block `[1, 16, 64, n]` without its unit batch axis, read at `(r, u, d)`: the block at `(0, r, u, d)`. -/
theorem dropBatch_apply {n : Nat} (x : (⟨4, ![1, 16, 64, n]⟩ : Shape).Idx → α)
    (h : (⟨4, ![1, 16, 64, n]⟩ : Shape).ShapeCasts ⟨3, ![16, 64, n]⟩) (r : Fin 16) (u : Fin 64) (d : Fin n) :
    shapeCast ⟨3, ![16, 64, n]⟩ x h (ix3 r u d) = x (ix4 0 r u d) :=
  shapeCast_apply _ h (ix3 r u d) (ix4 0 r u d) (by
    rw [Shape.rowMajor_val_four, Shape.rowMajor_val_three]
    show ((0 * 16 + r.val) * 64 + u.val) * n + d.val = (r.val * 64 + u.val) * n + d.val
    rw [Nat.zero_mul, Nat.zero_add])

/-- Every row of the flattened matrix is the row of one pair (frame of the tile, target position). -/
theorem exists_flatRow (p : Fin 1024) : ∃ (r : Fin 16) (u : Fin 64), p = flatRow r u :=
  ⟨⟨p.val / 64, by have := p.isLt; omega⟩, ⟨p.val % 64, Nat.mod_lt _ (by decide)⟩, Fin.ext (by
    show p.val = p.val / 64 * 64 + p.val % 64; omega)⟩

end Cert.Joint

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.JointSpec.lean ====
/-
  The joint network's two results as functions of the argument arrays, entry by entry, on the extended reals.

  For a batch entry `b`, a source frame `t`, a target position `u`:
  * the activation at feature `d` is
      `max (src[b,t,d] + tgt[b,u,d] + Σ_a hptr[b,t,u,a] · W_bias[d,a] + b_bias[d]) 0`,
    the three additions associated to the left in this order;
  * the output at class `v` is `Σ_d act[b,t,u,d] · W_out[v,d] + b_out[v]`.
  The zero of the maximum is kept as the float word both programs print, so that it is never evaluated.
-/
import Idealize.ShloMosaic.PureOps.Ideal
import Idealize.ShloMosaic.Lib.ValueIdx

noncomputable section

open scoped BigOperators

namespace Cert.Joint

open Idealize.ShloMosaic Idealize.ShloMosaic.ValueIdx

/-- The rectified joint activation `[8, 256, 64, 512]`. -/
def activation (src : (⟨3, ![8, 256, 512]⟩ : Shape).Idx → EReal) (tgt : (⟨3, ![8, 64, 512]⟩ : Shape).Idx → EReal)
    (hptr : (⟨4, ![8, 256, 64, 256]⟩ : Shape).Idx → EReal) (wBias : (⟨2, ![512, 256]⟩ : Shape).Idx → EReal)
    (bBias : (⟨1, ![512]⟩ : Shape).Idx → EReal) : (⟨4, ![8, 256, 64, 512]⟩ : Shape).Idx → EReal :=
  fun i => max (((src (ix3 (i 0) (i 1) (i 3)) + tgt (ix3 (i 0) (i 2) (i 3)))
      + ∑ a : Fin 256, hptr (ix4 (i 0) (i 1) (i 2) a) * wBias (ix2 (i 3) a)) + bBias (ix1 (i 3)))
    (Ideal.ofBits .f32 0x00000000#32)

/-- The output projection `[8, 256, 64, 1024]` of an activation array. -/
def projection (act : (⟨4, ![8, 256, 64, 512]⟩ : Shape).Idx → EReal) (wOut : (⟨2, ![1024, 512]⟩ : Shape).Idx → EReal)
    (bOut : (⟨1, ![1024]⟩ : Shape).Idx → EReal) : (⟨4, ![8, 256, 64, 1024]⟩ : Shape).Idx → EReal :=
  fun i => (∑ d : Fin 512, act (ix4 (i 0) (i 1) (i 2) d) * wOut (ix2 (i 3) d)) + bOut (ix1 (i 3))

end Cert.Joint

end
-- ==== Proof.TileValue.lean ====
/-
  What one grid point computes, entry by entry, on the extended reals.

  From its blocks — 16 source frames `s`, the 64 target rows `g`, the tile `h` of `hptr`, the transposed bias weights
  `wT` (`[256, 512]`), the bias `b` — the body forms, at frame `r` of the tile, target position `u` and feature `d`,
    `max (s[r,d] + g[u,d] + Σ_a h[r,u,a] · wT[a,d] + b[d]) 0`:
  the two repeats and the bias repeat each read one entry, the product of the flattened tile (row `64 r + u`) with `wT`
  into a zero accumulator is the sum over the contracted coordinate, and narrowing to bf16 changes no value on the
  extended reals. The second product, of the flattened activation with the transposed output weights `oT`
  (`[512, 1024]`), is at class `v` the sum `Σ_d act[r,u,d] · oT[d,v]`.
-/
import proofs.«103655_j5497558139009_1_alg».proof.Proof.Gen.KernelIdeal.Skeleton
import proofs.«103655_j5497558139009_1_alg».proof.Proof.TileLayout
import proofs.«103655_j5497558139009_1_alg».proof.Proof.LibRowDims
import proofs.«103655_j5497558139009_1_alg».proof.Proof.JointSpec
import Idealize.ShloMosaic.PureOps.Ideal.Laws

noncomputable section

open scoped BigOperators

namespace Cert.Joint.Tile

open Cert.KernelIdeal Cert.KernelIdeal.Gen Idealize.ShloMosaic Idealize.ShloMosaic.ValueIdx Cert.Joint

/-- The bias product's dimension numbers are those of a plain `[1024, 256] × [256, 512]` product. -/
theorem dotBias_eq : dot_S1024x256_S256x512_S1024x512_1_0_0_1_n_n = DotDims.plain 1024 256 512 := rfl

/-- The output product's dimension numbers are those of a plain `[1024, 512] × [512, 1024]` product. -/
theorem dotOut_eq : dot_S1024x512_S512x1024_S1024x1024_1_0_0_1_n_n = DotDims.plain 1024 512 1024 := rfl

/-- The rectified activation of the tile at `(r, u, d)`. -/
theorem activation_apply (v0 : FVec Ideal S1x16x512 .f32) (v2 : FVec Ideal S1x64x512 .f32) (v9 : FVec Ideal S1x16x64x256 .f32)
    (v13 : FVec Ideal S256x512 .f32) (v19 : FVec Ideal S512 .f32) (r : Fin 16) (u : Fin 64) (d : Fin 512) :
    k0_pay2 (F := Ideal) v0 v2 v9 v13 v19 (ix3 r u d)
      = max (((v0 (ix3 0 r d) + v2 (ix3 0 u d)) + ∑ a : Fin 256, v9 (ix4 0 r u a) * v13 (ix2 a d)) + v19 (ix1 d))
          (Ideal.ofBits .f32 0x00000000#32) := by
  unfold k0_pay2
  show max (((broadcastTo S16x64x512 (shapeCast S16x1x512 (shapeCast S16x512 v0 _) _) _ (ix3 r u d)
        + broadcastTo S16x64x512 (shapeCast S1x64x512 (shapeCast S64x512 v2 _) _) _ (ix3 r u d))
      + shapeCast S16x64x512 (matmul dot_S1024x256_S256x512_S1024x512_1_0_0_1_n_n none
          (shapeCast S1024x256 (truncf .bf16 (shapeCast S16x64x256 v9 _) _) _) (truncf .bf16 (shapeCast S256x512 v13 _) _)
          (constant S1024x512 .f32 0x00000000#32)) _ (ix3 r u d))
      + broadcastTo S16x64x512 (shapeCast S1x1x512 v19 _) _ (ix3 r u d)) (Ideal.ofBits .f32 0x00000000#32) = _
  rw [srcRepeat_apply, tgtRepeat_apply, biasRepeat_apply (by decide), unflatten_apply, dotBias_eq]
  rw [show ∀ (A : FVec Ideal S1024x256 .bf16) (B : FVec Ideal S256x512 .bf16),
      matmul (DotDims.plain 1024 256 512) none A B (constant S1024x512 .f32 0x00000000#32) (ix2 (flatRow r u) d)
        = ∑ a : Fin 256, A (ix2 (flatRow r u) a) * B (ix2 a d) from
    fun A B => RowDims.matmul_plain_zero_apply none A B (flatRow r u) d]
  simp only [flatten_apply, truncf_apply, dropBatch_apply, shapeCast_self]

/-- The output product of the tile at `(r, u, v)`, before the output bias: the activation's row against column `v`. -/
theorem product_apply (v0 : FVec Ideal S1x16x512 .f32) (v2 : FVec Ideal S1x64x512 .f32) (v9 : FVec Ideal S1x16x64x256 .f32)
    (v13 : FVec Ideal S256x512 .f32) (v19 : FVec Ideal S512 .f32) (v30 : FVec Ideal S512x1024 .f32)
    (r : Fin 16) (u : Fin 64) (v : Fin 1024) :
    k0_pay4 (F := Ideal) v0 v2 v9 v13 v19 v30 (ix3 r u v)
      = ∑ d : Fin 512, k0_pay2 (F := Ideal) v0 v2 v9 v13 v19 (ix3 r u d) * v30 (ix2 d v) := by
  unfold k0_pay4
  show shapeCast S16x64x1024 (matmul dot_S1024x512_S512x1024_S1024x1024_1_0_0_1_n_n none
      (shapeCast S1024x512 (truncf .bf16 (k0_pay2 (F := Ideal) v0 v2 v9 v13 v19) _) _) (truncf .bf16 (shapeCast S512x1024 v30 _) _)
      (constant S1024x1024 .f32 0x00000000#32)) _ (ix3 r u v) = _
  rw [unflatten_apply, dotOut_eq]
  rw [show ∀ (A : FVec Ideal S1024x512 .bf16) (B : FVec Ideal S512x1024 .bf16),
      matmul (DotDims.plain 1024 512 1024) none A B (constant S1024x1024 .f32 0x00000000#32) (ix2 (flatRow r u) v)
        = ∑ d : Fin 512, A (ix2 (flatRow r u) d) * B (ix2 d v) from
    fun A B => RowDims.matmul_plain_zero_apply none A B (flatRow r u) v]
  simp only [flatten_apply, truncf_apply, shapeCast_self]

/-- When the blocks hold the entries of the argument arrays that the array index `i` names — the source row and the
    `hptr` row of frame `i 1`, the target row of position `i 2`, column `i 3` of the transposed weights and of the
    bias — the tile's activation at `(r, u, d)` is the joint activation at `i`. -/
theorem activation_of_blocks (src : (⟨3, ![8, 256, 512]⟩ : Shape).Idx → EReal) (tgt : (⟨3, ![8, 64, 512]⟩ : Shape).Idx → EReal)
    (hptr : (⟨4, ![8, 256, 64, 256]⟩ : Shape).Idx → EReal) (wBias : (⟨2, ![512, 256]⟩ : Shape).Idx → EReal)
    (bBias : (⟨1, ![512]⟩ : Shape).Idx → EReal)
    (v0 : FVec Ideal S1x16x512 .f32) (v2 : FVec Ideal S1x64x512 .f32) (v9 : FVec Ideal S1x16x64x256 .f32)
    (v13 : FVec Ideal S256x512 .f32) (v19 : FVec Ideal S512 .f32)
    (i : (⟨4, ![8, 256, 64, 512]⟩ : Shape).Idx) (r : Fin 16) (u : Fin 64) (d : Fin 512)
    (h0 : v0 (ix3 0 r d) = src (ix3 (i 0) (i 1) (i 3)))
    (h1 : v2 (ix3 0 u d) = tgt (ix3 (i 0) (i 2) (i 3)))
    (h2 : ∀ a : Fin 256, v9 (ix4 0 r u a) = hptr (ix4 (i 0) (i 1) (i 2) a))
    (h3 : ∀ a : Fin 256, v13 (ix2 a d) = wBias (ix2 (i 3) a))
    (h4 : v19 (ix1 d) = bBias (ix1 (i 3))) :
    k0_pay2 (F := Ideal) v0 v2 v9 v13 v19 (ix3 r u d) = activation src tgt hptr wBias bBias i := by
  rw [activation_apply, h0, h1, h4]
  simp only [h2, h3]
  rfl

/-- When the tile's activation row `(r, u)` is the activation array's row at `i`, and the blocks hold column `i 3` of the
    transposed output weights and of the output bias, the tile's product at `(r, u, v)` plus the bias is the projection at `i`. -/
theorem projection_of_blocks (act : (⟨4, ![8, 256, 64, 512]⟩ : Shape).Idx → EReal) (wOut : (⟨2, ![1024, 512]⟩ : Shape).Idx → EReal)
    (bOut : (⟨1, ![1024]⟩ : Shape).Idx → EReal)
    (v0 : FVec Ideal S1x16x512 .f32) (v2 : FVec Ideal S1x64x512 .f32) (v9 : FVec Ideal S1x16x64x256 .f32)
    (v13 : FVec Ideal S256x512 .f32) (v19 : FVec Ideal S512 .f32) (v30 : FVec Ideal S512x1024 .f32) (v35 : FVec Ideal S1024 .f32)
    (i : (⟨4, ![8, 256, 64, 1024]⟩ : Shape).Idx) (r : Fin 16) (u : Fin 64) (v : Fin 1024)
    (hA : ∀ d : Fin 512, k0_pay2 (F := Ideal) v0 v2 v9 v13 v19 (ix3 r u d) = act (ix4 (i 0) (i 1) (i 2) d))
    (hW : ∀ d : Fin 512, v30 (ix2 d v) = wOut (ix2 (i 3) d))
    (hB : v35 (ix1 v) = bOut (ix1 (i 3))) :
    k0_pay4 (F := Ideal) v0 v2 v9 v13 v19 v30 (ix3 r u v) + v35 (ix1 v) = projection act wOut bOut i := by
  rw [product_apply, hB]
  simp only [hA, hW]
  rfl

end Cert.Joint.Tile

end
-- ==== Proof.TileStores.lean ====
/-
  What the body's two stores leave in the output blocks of a grid point. Each output block is written by one store
  through the whole block, and every load reads a whole input block, so the activation block holds, at `(0, r, u, d)`,
  the tile's rectified activation at `(r, u, d)`, and the output block holds, at `(0, r, u, v)`, the tile's product at
  `(r, u, v)` plus entry `v` of the output bias.
-/
import proofs.«103655_j5497558139009_1_alg».proof.Proof.Gen.KernelIdeal.Value
import proofs.«103655_j5497558139009_1_alg».proof.Proof.TileValue

noncomputable section

namespace Cert.Joint.Tile

open Cert.KernelIdeal Cert.KernelIdeal.Gen Idealize.ShloMosaic Idealize.ShloMosaic.ValueIdx Cert.Joint

theorem off1 : (![0] : Fin 1 → Nat) = fun _ => 0 := funext fun a => by fin_cases a <;> rfl
theorem off2 : (![0, 0] : Fin 2 → Nat) = fun _ => 0 := funext fun a => by fin_cases a <;> rfl
theorem off3 : (![0, 0, 0] : Fin 3 → Nat) = fun _ => 0 := funext fun a => by fin_cases a <;> rfl
theorem off4 : (![0, 0, 0, 0] : Fin 4 → Nat) = fun _ => 0 := funext fun a => by fin_cases a <;> rfl

/-- The coordinates of a block index `[1, 16, 64, n]` after its unit batch axis. -/
theorem tail_idx {n : Nat} (y : (⟨4, ![1, 16, 64, n]⟩ : Shape).Idx) (z : (⟨3, ![16, 64, n]⟩ : Shape).Idx)
    (h0 : (z 0).val = (y 1).val) (h1 : (z 1).val = (y 2).val) (h2 : (z 2).val = (y 3).val) :
    z = ix3 (y 1) (y 2) (y 3) :=
  funext fun a => Fin.ext (by match a with | ⟨0, _⟩ => exact h0 | ⟨1, _⟩ => exact h1 | ⟨2, _⟩ => exact h2)

/-- The activation block after the body. -/
theorem activationBlock_apply (x0 : FVec Ideal S1x16x512 .f32) (x1 : FVec Ideal S1x64x512 .f32) (x2 : FVec Ideal S1x16x64x256 .f32)
    (x3 : FVec Ideal S256x512 .f32) (x4 : FVec Ideal S512 .f32) (x5 : FVec Ideal S512x1024 .f32) (x6 : FVec Ideal S1024 .f32)
    (y : S1x16x64x512.Idx) :
    out0_7 (F := Ideal) x0 x1 x2 x3 x4 x5 x6 y = k0_pay2 (F := Ideal) x0 x1 x2 x3 x4 (ix3 (y 1) (y 2) (y 3)) := by
  unfold out0_7
  simp only [View.ld_unit_zero (S := S1x16x512) off3, View.ld_unit_zero (S := S1x64x512) off3,
    View.ld_unit_zero (S := S1x16x64x256) off4, View.ld_unit_zero (S := S256x512) off2, View.ld_unit_zero (S := S512) off1]
  refine (Cert.KernelIdeal.Value.canon7_eq (F := Ideal) x0 x1 x2 x3 x4 y).trans ?_
  show k0_pay2 (F := Ideal) x0 x1 x2 x3 x4 (Cert.KernelIdeal.Value.ix7_0 y) = _
  exact congrArg _ (tail_idx y (Cert.KernelIdeal.Value.ix7_0 y) rfl rfl rfl)

/-- The output block after the body. -/
theorem outputBlock_apply (x0 : FVec Ideal S1x16x512 .f32) (x1 : FVec Ideal S1x64x512 .f32) (x2 : FVec Ideal S1x16x64x256 .f32)
    (x3 : FVec Ideal S256x512 .f32) (x4 : FVec Ideal S512 .f32) (x5 : FVec Ideal S512x1024 .f32) (x6 : FVec Ideal S1024 .f32)
    (y : S1x16x64x1024.Idx) :
    out0_8 (F := Ideal) x0 x1 x2 x3 x4 x5 x6 y
      = k0_pay4 (F := Ideal) x0 x1 x2 x3 x4 x5 (ix3 (y 1) (y 2) (y 3)) + x6 (ix1 (y 3)) := by
  unfold out0_8
  simp only [View.ld_unit_zero (S := S1x16x512) off3, View.ld_unit_zero (S := S1x64x512) off3,
    View.ld_unit_zero (S := S1x16x64x256) off4, View.ld_unit_zero (S := S256x512) off2, View.ld_unit_zero (S := S512) off1,
    View.ld_unit_zero (S := S512x1024) off2, View.ld_unit_zero (S := S1024) off1]
  refine (Cert.KernelIdeal.Value.canon8_eq (F := Ideal) x0 x1 x2 x3 x4 x5 x6 y).trans ?_
  show k0_pay4 (F := Ideal) x0 x1 x2 x3 x4 x5 (Cert.KernelIdeal.Value.ix8_0 y) + x6 (Cert.KernelIdeal.Value.ix8_1 y) = _
  exact congrArg₂ (· + ·) (congrArg _ (tail_idx y (Cert.KernelIdeal.Value.ix8_0 y) rfl rfl rfl))
    (congrArg x6 (funext fun a => Fin.ext (by match a with | ⟨0, _⟩ => rfl)))

end Cert.Joint.Tile

end
-- ==== Proof.ArrayValue.lean ====
/-
  From tiles to arrays: what the kernel's two result arrays hold after the run.

  Grid point `(b, k)` stages rows `16 k … 16 k + 15` of batch entry `b` of the source encodings and of `hptr`, all of
  batch entry `b` of the target encodings, and the whole of the two transposed weight matrices and the two biases; it
  writes back block `(b, k)` of the activation and of the output. An entry of a block at `(0, r, u, ·)` is the array's
  entry at `(b, 16 k + r, u, ·)`, so what the point writes back is that block of the joint activation and of its
  projection (the transposed weights read back at the swapped index). The 8 × 16 blocks tile each result array, so the
  arrays end holding the two specification functions of the argument arrays.
-/
import proofs.«103655_j5497558139009_1_alg».proof.Proof.TileStores
import proofs.«103655_j5497558139009_1_alg».proof.Proof.JointSpec
import Idealize.ShloMosaic.Lib.ValueLayout
import Idealize.ShloMosaic.Lib.StableHlo.Run

set_option maxRecDepth 16384

noncomputable section

namespace Cert.Joint.Arrays

open Cert.KernelIdeal Cert.KernelIdeal.Gen Idealize.ShloMosaic Idealize.ShloMosaic.TcCoe Idealize.SL.Sem
open Idealize.ShloMosaic.ValueIdx Idealize.ShloMosaic.StableHlo Cert.Joint
open Idealize.ShloMosaic.Pipeline (Dat)

variable (m : (ℓ : Loc nD τ sig) → Buf (Elt Ideal) ℓ) (ρ : Dev nD → PrngReg)

/-- The joint activation of the launch contents of the arguments. -/
abbrev actArr (c : Dev nD) : S8x256x64x512.Idx → EReal :=
  activation (m ((c : Thread nD τ).loc main_arg0)) (m ((c : Thread nD τ).loc main_arg2)) (m ((c : Thread nD τ).loc main_arg4))
    (m ((c : Thread nD τ).loc main_arg5)) (m ((c : Thread nD τ).loc main_arg6))

/-- Its projection by the launch contents of the output weights and bias. -/
abbrev outArr (c : Dev nD) : S8x256x64x1024.Idx → EReal :=
  projection (actArr m c) (m ((c : Thread nD τ).loc main_arg7)) (m ((c : Thread nD τ).loc main_arg8))

/-! ## The transposed weights, as the region finds them -/

theorem wBiasT_eq (c : Dev nD) : (V m c main_v0 : S256x512.Idx → EReal)
    = transpose S256x512 [1, 0] (m ((c : Thread nD τ).loc main_arg5) : S512x256.Idx → EReal) transposes_S512x256_S256x512_1_0 := by
  dsimp only [V, hostOps0]; after_results <;> rfl

theorem wOutT_eq (c : Dev nD) : (V m c main_v1 : S512x1024.Idx → EReal)
    = transpose S512x1024 [1, 0] (m ((c : Thread nD τ).loc main_arg7) : S1024x512.Idx → EReal) transposes_S1024x512_S512x1024_1_0 := by
  dsimp only [V, hostOps0]; after_results <;> rfl

/-- Entry `(a, d)` of the transposed bias weights is entry `(d, a)` of `W_bias`. -/
theorem wBiasT_apply (c : Dev nD) (a : Fin 256) (d : Fin 512) :
    (V m c main_v0 : S256x512.Idx → EReal) (ix2 a d) = m ((c : Thread nD τ).loc main_arg5) (ix2 d a) := by
  rw [wBiasT_eq]; exact transpose_ix2_apply _ _ a d

/-- Entry `(d, v)` of the transposed output weights is entry `(v, d)` of `W_out`. -/
theorem wOutT_apply (c : Dev nD) (d : Fin 512) (v : Fin 1024) :
    (V m c main_v1 : S512x1024.Idx → EReal) (ix2 d v) = m ((c : Thread nD τ).loc main_arg7) (ix2 v d) := by
  rw [wOutT_eq]; exact transpose_ix2_apply _ _ d v

/-! ## The index maps over the grid -/

/-- The source window moves with the activation window on the batch and frame axes. -/
theorem srcIdx : ∀ t : Fin cfg0.N, win0_0.index t (0 : Fin 3) = win0_7.index t (0 : Fin 4)
    ∧ win0_0.index t (1 : Fin 3) = win0_7.index t (1 : Fin 4) ∧ win0_0.index t (2 : Fin 3) = 0 :=
  (by decide +kernel : ∀ t : Fin grid0.N, _)

/-- The target window moves with it on the batch axis only. -/
theorem tgtIdx : ∀ t : Fin cfg0.N, win0_1.index t (0 : Fin 3) = win0_7.index t (0 : Fin 4)
    ∧ win0_1.index t (1 : Fin 3) = 0 ∧ win0_1.index t (2 : Fin 3) = 0 :=
  (by decide +kernel : ∀ t : Fin grid0.N, _)

/-- The `hptr` window moves with it on the batch and frame axes. -/
theorem hptrIdx : ∀ t : Fin cfg0.N, win0_2.index t (0 : Fin 4) = win0_7.index t (0 : Fin 4)
    ∧ win0_2.index t (1 : Fin 4) = win0_7.index t (1 : Fin 4) ∧ win0_2.index t (2 : Fin 4) = 0 ∧ win0_2.index t (3 : Fin 4) = 0 :=
  (by decide +kernel : ∀ t : Fin grid0.N, _)

/-- The weights and biases are staged whole at every point. -/
theorem wholeIdx : ∀ t : Fin cfg0.N, win0_3.index t (0 : Fin 2) = 0 ∧ win0_3.index t (1 : Fin 2) = 0
    ∧ win0_4.index t (0 : Fin 1) = 0 ∧ win0_5.index t (0 : Fin 2) = 0 ∧ win0_5.index t (1 : Fin 2) = 0
    ∧ win0_6.index t (0 : Fin 1) = 0 :=
  (by decide +kernel : ∀ t : Fin grid0.N, _)

/-- The activation window's blocks: whole on the last two axes, inside the array on the first two. -/
theorem actIdx : ∀ t : Fin cfg0.N, win0_7.index t (2 : Fin 4) = 0 ∧ win0_7.index t (3 : Fin 4) = 0
    ∧ win0_7.index t (0 : Fin 4) < 8 ∧ win0_7.index t (1 : Fin 4) < 16 :=
  (by decide +kernel : ∀ t : Fin grid0.N, _)

/-- The output window has the activation window's block indices. -/
theorem outIdx : ∀ t : Fin cfg0.N, win0_8.index t (0 : Fin 4) = win0_7.index t (0 : Fin 4)
    ∧ win0_8.index t (1 : Fin 4) = win0_7.index t (1 : Fin 4) ∧ win0_8.index t (2 : Fin 4) = 0 ∧ win0_8.index t (3 : Fin 4) = 0 :=
  (by decide +kernel : ∀ t : Fin grid0.N, _)

/-- Every block `(b, k)` is some point's. -/
theorem onto : ∀ (b : Fin 8) (k : Fin 16), ∃ t : Fin cfg0.N, win0_7.index t (0 : Fin 4) = b.val ∧ win0_7.index t (1 : Fin 4) = k.val :=
  (by decide +kernel : ∀ (b : Fin 8) (k : Fin 16), ∃ t : Fin grid0.N, win0_7.index t (0 : Fin 4) = b.val ∧ win0_7.index t (1 : Fin 4) = k.val)

/-! ## One point's tile against the arrays -/

/-- The tile's activation at `(r, u, d)` at point `t` is the joint activation at the array index in block `t`'s rows:
    batch `b`, frame `16 k + r`, position `u`, feature `d`. -/
theorem tileAct (c : Dev nD) (t : Fin cfg0.N) (r : Fin 16) (u : Fin 64) (d : Fin 512) (i : S8x256x64x512.Idx)
    (h0 : (i 0).val = win0_7.index t (0 : Fin 4)) (h1 : (i 1).val = win0_7.index t (1 : Fin 4) * 16 + r.val)
    (h2 : (i 2).val = u.val) (h3 : (i 3).val = d.val) :
    k0_pay2 (F := Ideal) (iblk m c 0 t) (iblk m c 1 t) (iblk m c 2 t) (iblk m c 3 t) (iblk m c 4 t) (ix3 r u d) = actArr m c i := by
  obtain ⟨s0, s1, s2⟩ := srcIdx t
  obtain ⟨g0, g1, g2⟩ := tgtIdx t
  obtain ⟨p0, p1, p2, p3⟩ := hptrIdx t
  obtain ⟨w0, w1, w2, -, -, -⟩ := wholeIdx t
  refine Tile.activation_of_blocks _ _ _ _ _ _ _ _ _ _ i r u d ?_ ?_ (fun a => ?_) (fun a => ?_) ?_
  · -- the source row
    show V m c main_arg0 (((cfg0.win 0).blk t).view.emb (ix3 0 r d)) = _
    rw [V_main_arg0]
    refine congrArg _ (funext fun a => Fin.ext ?_)
    match a with
    | ⟨0, _⟩ => show win0_0.index t (0 : Fin 3) * 1 + 1 * 0 = (i 0).val; omega
    | ⟨1, _⟩ => show win0_0.index t (1 : Fin 3) * 16 + 1 * r.val = (i 1).val; omega
    | ⟨2, _⟩ => show win0_0.index t (2 : Fin 3) * 512 + 1 * d.val = (i 3).val; omega
  · -- the target row
    show V m c main_arg2 (((cfg0.win 1).blk t).view.emb (ix3 0 u d)) = _
    rw [V_main_arg2]
    refine congrArg _ (funext fun a => Fin.ext ?_)
    match a with
    | ⟨0, _⟩ => show win0_1.index t (0 : Fin 3) * 1 + 1 * 0 = (i 0).val; omega
    | ⟨1, _⟩ => show win0_1.index t (1 : Fin 3) * 64 + 1 * u.val = (i 2).val; omega
    | ⟨2, _⟩ => show win0_1.index t (2 : Fin 3) * 512 + 1 * d.val = (i 3).val; omega
  · -- the hptr row
    show V m c main_arg4 (((cfg0.win 2).blk t).view.emb (ix4 0 r u a)) = _
    rw [V_main_arg4]
    refine congrArg _ (funext fun b => Fin.ext ?_)
    match b with
    | ⟨0, _⟩ => show win0_2.index t (0 : Fin 4) * 1 + 1 * 0 = (i 0).val; omega
    | ⟨1, _⟩ => show win0_2.index t (1 : Fin 4) * 16 + 1 * r.val = (i 1).val; omega
    | ⟨2, _⟩ => show win0_2.index t (2 : Fin 4) * 64 + 1 * u.val = (i 2).val; omega
    | ⟨3, _⟩ => show win0_2.index t (3 : Fin 4) * 256 + 1 * a.val = a.val; omega
  · -- the column of the transposed bias weights
    show (V m c main_v0 : S256x512.Idx → EReal) (((cfg0.win 3).blk t).view.emb (ix2 a d)) = _
    rw [show ((cfg0.win 3).blk t).view.emb (ix2 a d) = ix2 a d from funext fun b => Fin.ext (by
      match b with
      | ⟨0, _⟩ => show win0_3.index t (0 : Fin 2) * 256 + 1 * a.val = a.val; omega
      | ⟨1, _⟩ => show win0_3.index t (1 : Fin 2) * 512 + 1 * d.val = d.val; omega)]
    rw [wBiasT_apply]
    refine congrArg _ (funext fun b => Fin.ext ?_)
    match b with
    | ⟨0, _⟩ => show d.val = (i 3).val; omega
    | ⟨1, _⟩ => rfl
  · -- the bias entry
    show V m c main_arg6 (((cfg0.win 4).blk t).view.emb (ix1 d)) = _
    rw [V_main_arg6]
    refine congrArg _ (funext fun b => Fin.ext ?_)
    match b with
    | ⟨0, _⟩ => show win0_4.index t (0 : Fin 1) * 512 + 1 * d.val = (i 3).val; omega

/-! ## What a point writes back -/

/-- Point `t` writes back block `t` of the joint activation. -/
theorem wroteAct (c : Dev nD) (t : Fin cfg0.N) :
    (dats m 0 c).flushed 7 t = ((cfg0.win 7).blk t).view.read (Elt Ideal) (actArr m c) := by
  rw [Cert.KernelIdeal.Value.flushed7]
  obtain ⟨a2, a3, -, -⟩ := actIdx t
  funext y
  show out0_7 (F := Ideal) (iblk m c 0 t) (iblk m c 1 t) (iblk m c 2 t) (iblk m c 3 t) (iblk m c 4 t) (iblk m c 5 t) (iblk m c 6 t) y
    = actArr m c (((cfg0.win 7).blk t).view.emb y)
  refine (Tile.activationBlock_apply _ _ _ _ _ _ _ y).trans ?_
  have hy0 : (y 0).val < 1 := (y 0).isLt
  refine tileAct m c t (y 1) (y 2) (y 3) _ ?_ ?_ ?_ ?_
  · show win0_7.index t (0 : Fin 4) * 1 + 1 * (y 0).val = win0_7.index t (0 : Fin 4); omega
  · show win0_7.index t (1 : Fin 4) * 16 + 1 * (y 1).val = win0_7.index t (1 : Fin 4) * 16 + (y 1).val; omega
  · show win0_7.index t (2 : Fin 4) * 64 + 1 * (y 2).val = (y 2).val; omega
  · show win0_7.index t (3 : Fin 4) * 512 + 1 * (y 3).val = (y 3).val; omega

/-- Point `t` writes back block `t` of the projection. -/
theorem wroteOut (c : Dev nD) (t : Fin cfg0.N) :
    (dats m 0 c).flushed 8 t = ((cfg0.win 8).blk t).view.read (Elt Ideal) (outArr m c) := by
  rw [Cert.KernelIdeal.Value.flushed8]
  obtain ⟨a2, a3, -, -⟩ := actIdx t
  obtain ⟨o0, o1, o2, o3⟩ := outIdx t
  obtain ⟨-, -, -, w3, w4, w5⟩ := wholeIdx t
  funext y
  show out0_8 (F := Ideal) (iblk m c 0 t) (iblk m c 1 t) (iblk m c 2 t) (iblk m c 3 t) (iblk m c 4 t) (iblk m c 5 t) (iblk m c 6 t) y
    = outArr m c (((cfg0.win 8).blk t).view.emb y)
  refine (Tile.outputBlock_apply _ _ _ _ _ _ _ y).trans ?_
  have hy0 : (y 0).val < 1 := (y 0).isLt
  have e0 : ((((cfg0.win 8).blk t).view.emb y) 0).val = win0_7.index t (0 : Fin 4) := by
    show win0_8.index t (0 : Fin 4) * 1 + 1 * (y 0).val = _; omega
  have e1 : ((((cfg0.win 8).blk t).view.emb y) 1).val = win0_7.index t (1 : Fin 4) * 16 + (y 1).val := by
    show win0_8.index t (1 : Fin 4) * 16 + 1 * (y 1).val = _; omega
  have e2 : ((((cfg0.win 8).blk t).view.emb y) 2).val = (y 2).val := by
    show win0_8.index t (2 : Fin 4) * 64 + 1 * (y 2).val = _; omega
  have e3 : ((((cfg0.win 8).blk t).view.emb y) 3).val = (y 3).val := by
    show win0_8.index t (3 : Fin 4) * 1024 + 1 * (y 3).val = _; omega
  refine Tile.projection_of_blocks _ _ _ _ _ _ _ _ _ _ (((cfg0.win 8).blk t).view.emb y) (y 1) (y 2) (y 3)
    (fun d => ?_) (fun d => ?_) ?_
  · -- the activation row
    exact tileAct m c t (y 1) (y 2) d _ e0 e1 e2 rfl
  · -- the column of the transposed output weights
    show (V m c main_v1 : S512x1024.Idx → EReal) (((cfg0.win 5).blk t).view.emb (ix2 d (y 3))) = _
    rw [show ((cfg0.win 5).blk t).view.emb (ix2 d (y 3)) = ix2 d (y 3) from funext fun b => Fin.ext (by
      match b with
      | ⟨0, _⟩ => show win0_5.index t (0 : Fin 2) * 512 + 1 * d.val = d.val; omega
      | ⟨1, _⟩ => show win0_5.index t (1 : Fin 2) * 1024 + 1 * (y 3).val = (y 3).val; omega)]
    refine (wOutT_apply m c d (y 3)).trans ?_
    refine congrArg _ (funext fun b => Fin.ext ?_)
    match b with
    | ⟨0, _⟩ => exact e3.symm
    | ⟨1, _⟩ => rfl
  · -- the output bias entry
    show V m c main_arg8 (((cfg0.win 6).blk t).view.emb (ix1 (y 3))) = _
    rw [V_main_arg8]
    refine congrArg _ (funext fun b => Fin.ext ?_)
    match b with
    | ⟨0, _⟩ => show win0_6.index t (0 : Fin 1) * 1024 + 1 * (y 3).val = _; rw [e3]; omega

/-! ## The blocks tile the arrays -/

theorem mem_actBlock (t : Fin cfg0.N) (i : S8x256x64x512.Idx) :
    i ∈ ((cfg0.win 7).blk t).view.set ↔ ∀ a : Fin 4, win0_7.index t a * S1x16x64x512.size a ≤ (i a).val
      ∧ (i a).val < win0_7.index t a * S1x16x64x512.size a + S1x16x64x512.size a := by
  show i ∈ ((View.whole main_v2_0).slice (win0_7.rect t)).set ↔ _
  rw [View.set_slice_whole, Rect.mem_set_unit]
  exact Iff.rfl

theorem mem_outBlock (t : Fin cfg0.N) (i : S8x256x64x1024.Idx) :
    i ∈ ((cfg0.win 8).blk t).view.set ↔ ∀ a : Fin 4, win0_8.index t a * S1x16x64x1024.size a ≤ (i a).val
      ∧ (i a).val < win0_8.index t a * S1x16x64x1024.size a + S1x16x64x1024.size a := by
  show i ∈ ((View.whole main_v2_1).slice (win0_8.rect t)).set ↔ _
  rw [View.set_slice_whole, Rect.mem_set_unit]
  exact Iff.rfl

/-- Every activation entry is in the block of the point of its batch entry and its frame's tile. -/
theorem actCover (i : S8x256x64x512.Idx) : ∃ t : Fin cfg0.N, (cfg0.win 7).flush t = true ∧ i ∈ ((cfg0.win 7).blk t).view.set := by
  have hi0 : (i 0).val < 8 := (i 0).isLt
  have hi1 : (i 1).val < 256 := (i 1).isLt
  have hi2 : (i 2).val < 64 := (i 2).isLt
  have hi3 : (i 3).val < 512 := (i 3).isLt
  obtain ⟨t, q0, q1⟩ := onto ⟨(i 0).val, hi0⟩ ⟨(i 1).val / 16, by omega⟩
  obtain ⟨a2, a3, -, -⟩ := actIdx t
  refine ⟨t, flush0_7 t, ?_⟩
  rw [mem_actBlock]
  intro a
  match a with
  | ⟨0, _⟩ => show win0_7.index t (0 : Fin 4) * 1 ≤ (i 0).val ∧ (i 0).val < win0_7.index t (0 : Fin 4) * 1 + 1
              have : win0_7.index t (0 : Fin 4) = (i 0).val := q0
              omega
  | ⟨1, _⟩ => show win0_7.index t (1 : Fin 4) * 16 ≤ (i 1).val ∧ (i 1).val < win0_7.index t (1 : Fin 4) * 16 + 16
              have : win0_7.index t (1 : Fin 4) = (i 1).val / 16 := q1
              omega
  | ⟨2, _⟩ => show win0_7.index t (2 : Fin 4) * 64 ≤ (i 2).val ∧ (i 2).val < win0_7.index t (2 : Fin 4) * 64 + 64; omega
  | ⟨3, _⟩ => show win0_7.index t (3 : Fin 4) * 512 ≤ (i 3).val ∧ (i 3).val < win0_7.index t (3 : Fin 4) * 512 + 512; omega

/-- The same for the output entries. -/
theorem outCover (i : S8x256x64x1024.Idx) : ∃ t : Fin cfg0.N, (cfg0.win 8).flush t = true ∧ i ∈ ((cfg0.win 8).blk t).view.set := by
  have hi0 : (i 0).val < 8 := (i 0).isLt
  have hi1 : (i 1).val < 256 := (i 1).isLt
  have hi2 : (i 2).val < 64 := (i 2).isLt
  have hi3 : (i 3).val < 1024 := (i 3).isLt
  obtain ⟨t, q0, q1⟩ := onto ⟨(i 0).val, hi0⟩ ⟨(i 1).val / 16, by omega⟩
  obtain ⟨o0, o1, o2, o3⟩ := outIdx t
  refine ⟨t, flush0_8 t, ?_⟩
  rw [mem_outBlock]
  intro a
  match a with
  | ⟨0, _⟩ => show win0_8.index t (0 : Fin 4) * 1 ≤ (i 0).val ∧ (i 0).val < win0_8.index t (0 : Fin 4) * 1 + 1
              have : win0_7.index t (0 : Fin 4) = (i 0).val := q0
              omega
  | ⟨1, _⟩ => show win0_8.index t (1 : Fin 4) * 16 ≤ (i 1).val ∧ (i 1).val < win0_8.index t (1 : Fin 4) * 16 + 16
              have : win0_7.index t (1 : Fin 4) = (i 1).val / 16 := q1
              omega
  | ⟨2, _⟩ => show win0_8.index t (2 : Fin 4) * 64 ≤ (i 2).val ∧ (i 2).val < win0_8.index t (2 : Fin 4) * 64 + 64; omega
  | ⟨3, _⟩ => show win0_8.index t (3 : Fin 4) * 1024 ≤ (i 3).val ∧ (i 3).val < win0_8.index t (3 : Fin 4) * 1024 + 1024; omega

/-! ## The arrays after the run -/

/-- The activation array ends holding the joint activation. -/
theorem finalAct (c : Dev nD) : (dats m 0 c).arrAt 7 cfg0.N = actArr m c :=
  (dats m 0 c).arrAt_eq_of_cover 7 (actArr m c) (fun t _ => wroteAct m c t) actCover

/-- The output array ends holding its projection. -/
theorem finalOut (c : Dev nD) : (dats m 0 c).arrAt 8 cfg0.N = outArr m c :=
  (dats m 0 c).arrAt_eq_of_cover 8 (outArr m c) (fun t _ => wroteOut m c t) outCover

/-- The kernel's run: every weakly fair execution terminates with the output and activation arrays at the two
    specification functions of the arguments, the arguments unchanged. -/
theorem run : θ_run defs (onTc (τ := τ) (main (F := Ideal))) ⟨m, fun _ => 0, ρ⟩ fun r => ∀ c : Dev nD,
      r.2.mem ((c : Thread nD τ).loc main_v2_1) = outArr m c
      ∧ r.2.mem ((c : Thread nD τ).loc main_arg1) = m ((c : Thread nD τ).loc main_arg1)
      ∧ r.2.mem ((c : Thread nD τ).loc main_arg3) = m ((c : Thread nD τ).loc main_arg3)
      ∧ r.2.mem ((c : Thread nD τ).loc main_v2_0) = actArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => by
    obtain ⟨h7, h8, k0, k1, k2, k3, k4, k5, k6, k7, k8⟩ := h c
    exact ⟨h8.trans (finalOut m c), k1, k3, h7.trans (finalAct m c), k0, k1, k2, k3, k4, k5, k6, k7, k8⟩)
    (Cert.KernelIdeal.Value.run_blocks m ρ)

end Cert.Joint.Arrays

end
-- ==== Proof.RefJoint.lean ====
/-
  The reference's two float results are the specification's functions of its arguments.

  The reference adds the source and target encodings after broadcasting each along the other's axis, adds the
  contraction of `hptr` with `W_bias` over their last axes and then the bias, rectifies, contracts the activation with
  `W_out` over their last axes and adds the output bias. Read one operation at a time at an index, every broadcast
  chain lands on one entry of an argument and every contraction is a sum over its one contracted coordinate; what is
  left is the specification's expression, term for term.
-/
import proofs.«103655_j5497558139009_1_alg».proof.Proof.Gen.ReferenceIdeal.Read
import proofs.«103655_j5497558139009_1_alg».proof.Proof.JointSpec

noncomputable section

open scoped BigOperators

namespace Cert.Joint.Ref

open Cert.ReferenceIdeal Cert.ReferenceIdeal.Read Idealize.ShloMosaic Idealize.ShloMosaic.ValueIdx

/-! ## Where each operand is read -/

/-- The source encodings, broadcast twice, are read at (batch, frame, feature). -/
theorem src_idx (i : S8x256x64x512.Idx) : idx_main_v0 (idx_main_v2 i) = ix3 (i 0) (i 1) (i 3) :=
  funext fun a => Fin.ext (by match a with | ⟨0, _⟩ => rfl | ⟨1, _⟩ => rfl | ⟨2, _⟩ => rfl)

/-- The target encodings, broadcast twice, are read at (batch, position, feature). -/
theorem tgt_idx (i : S8x256x64x512.Idx) : idx_main_v1 (idx_main_v3 i) = ix3 (i 0) (i 2) (i 3) :=
  funext fun a => Fin.ext (by match a with | ⟨0, _⟩ => rfl | ⟨1, _⟩ => rfl | ⟨2, _⟩ => rfl)

/-- The first contraction reads `hptr` at (batch, frame, position, a) -/
theorem hptr_idx (i : S8x256x64x512.Idx) (a : Fin 256) : lidx_main_v5 i a = ix4 (i 0) (i 1) (i 2) a :=
  funext fun b => Fin.ext (by match b with | ⟨0, _⟩ => rfl | ⟨1, _⟩ => rfl | ⟨2, _⟩ => rfl | ⟨3, _⟩ => rfl)

/-- and `W_bias` at (feature, a). -/
theorem wBias_idx (i : S8x256x64x512.Idx) (a : Fin 256) : ridx_main_v5 i a = ix2 (i 3) a :=
  funext fun b => Fin.ext (by match b with | ⟨0, _⟩ => rfl | ⟨1, _⟩ => rfl)

/-- The bias, broadcast twice, is read at the feature. -/
theorem bBias_idx (i : S8x256x64x512.Idx) : idx_main_v7 (idx_main_v8 i) = ix1 (i 3) :=
  funext fun a => Fin.ext (by match a with | ⟨0, _⟩ => rfl)

/-- The second contraction reads the activation at (batch, frame, position, d) -/
theorem act_idx (i : S8x256x64x1024.Idx) (d : Fin 512) : lidx_main_v11 i d = ix4 (i 0) (i 1) (i 2) d :=
  funext fun b => Fin.ext (by match b with | ⟨0, _⟩ => rfl | ⟨1, _⟩ => rfl | ⟨2, _⟩ => rfl | ⟨3, _⟩ => rfl)

/-- and `W_out` at (class, d). -/
theorem wOut_idx (i : S8x256x64x1024.Idx) (d : Fin 512) : ridx_main_v11 i d = ix2 (i 3) d :=
  funext fun b => Fin.ext (by match b with | ⟨0, _⟩ => rfl | ⟨1, _⟩ => rfl)

/-- The output bias, broadcast twice, is read at the class. -/
theorem bOut_idx (i : S8x256x64x1024.Idx) : idx_main_v12 (idx_main_v13 i) = ix1 (i 3) :=
  funext fun a => Fin.ext (by match a with | ⟨0, _⟩ => rfl)

/-! ## The two results -/

/-- The reference's rectified activation is the specification's. -/
theorem activation_eq (x0 : (⟨S8x256x512, .f32⟩ : BufTy).Contents (Elt Ideal)) (x2 : (⟨S8x64x512, .f32⟩ : BufTy).Contents (Elt Ideal))
    (x4 : (⟨S8x256x64x256, .f32⟩ : BufTy).Contents (Elt Ideal)) (x5 : (⟨S512x256, .f32⟩ : BufTy).Contents (Elt Ideal))
    (x6 : (⟨S512, .f32⟩ : BufTy).Contents (Elt Ideal)) :
    val_main_v10 (F := Ideal) x0 x2 x4 x5 x6 = Cert.Joint.activation x0 x2 x4 x5 x6 := by
  funext i
  rw [val_main_v10_apply, val_main_v9_apply, val_main_v6_apply, val_main_v4_apply, val_main_v2_apply, val_main_v0_apply,
    val_main_v3_apply, val_main_v1_apply, val_main_v5_apply, val_main_v8_apply, val_main_v7_apply,
    val_main_call0_v0_apply, val_main_call0_cst_apply]
  simp only [src_idx, tgt_idx, hptr_idx, wBias_idx, bBias_idx]
  rfl

/-- The reference's output is the specification's projection of that activation. -/
theorem projection_eq (x0 : (⟨S8x256x512, .f32⟩ : BufTy).Contents (Elt Ideal)) (x2 : (⟨S8x64x512, .f32⟩ : BufTy).Contents (Elt Ideal))
    (x4 : (⟨S8x256x64x256, .f32⟩ : BufTy).Contents (Elt Ideal)) (x5 : (⟨S512x256, .f32⟩ : BufTy).Contents (Elt Ideal))
    (x6 : (⟨S512, .f32⟩ : BufTy).Contents (Elt Ideal)) (x7 : (⟨S1024x512, .f32⟩ : BufTy).Contents (Elt Ideal))
    (x8 : (⟨S1024, .f32⟩ : BufTy).Contents (Elt Ideal)) :
    val_main_v14 (F := Ideal) x0 x2 x4 x5 x6 x7 x8
      = Cert.Joint.projection (Cert.Joint.activation x0 x2 x4 x5 x6) x7 x8 := by
  funext i
  rw [val_main_v14_apply, val_main_v11_apply, val_main_v13_apply, val_main_v12_apply, activation_eq]
  simp only [act_idx, wOut_idx, bOut_idx]
  rfl

end Cert.Joint.Ref

end
-- ==== Proof.lean ====
/-
  The joint network of a transducer: for every batch entry, source frame `t` and target position `u` the source and
  target encodings are added, a projection of `hptr[b, t, u, ·]` by `W_bias` and a bias are added, the sum is rectified
  (the activation, one result), and the activation is projected by `W_out` with a bias (the output, the other result);
  the two length vectors are returned as they came.

  The kernel tiles the source frames by 16 over a grid of 8 × 16 points and does both projections as matrix products of
  the flattened tile (row `64 r + u`) with the weight matrices transposed on the host beforehand, its operands narrowed
  to bf16; the reference contracts the last axes of the four-dimensional arrays directly. On the extended reals
  narrowing changes nothing, a product into a zero accumulator is the plain sum over the contracted coordinate, the
  transposed weights read at `(a, d)` are the weights at `(d, a)`, and the three additions are associated alike on both
  sides, so entry by entry both programs compute
    `act = max (src + tgt + Σ_a hptr · W_bias + b_bias) 0`  and  `out = Σ_d act · W_out + b_out`
  (Proof/JointSpec.lean). No law that needs finite operands is used: the precondition is not opened.

  Proof/RefJoint.lean reads the reference's run as these two functions; Proof/TileValue.lean and Proof/TileStores.lean
  read what one grid point's body stores; Proof/ArrayValue.lean sets a point's blocks against the arrays and covers the
  result arrays by the 128 blocks. The frames of the two kernel programs are the generated ones, the reference's frame
  is its run with the results dropped, and nothing was rewritten by the idealization.
-/
import proofs.«103655_j5497558139009_1_alg».proof.Defs
import proofs.«103655_j5497558139009_1_alg».proof.Proof.Gen.Kernel
import proofs.«103655_j5497558139009_1_alg».proof.Proof.Gen.Kernel.Frame
import proofs.«103655_j5497558139009_1_alg».proof.Proof.Gen.KernelIdeal
import proofs.«103655_j5497558139009_1_alg».proof.Proof.Gen.KernelIdeal.Frame
import proofs.«103655_j5497558139009_1_alg».proof.Proof.Gen.KernelIdeal.Value
import proofs.«103655_j5497558139009_1_alg».proof.Proof.Gen.ReferenceIdeal
import proofs.«103655_j5497558139009_1_alg».proof.Proof.Gen.ReferenceIdeal.Run
import proofs.«103655_j5497558139009_1_alg».proof.Proof.Gen.ReferenceIdeal.Read
import proofs.«103655_j5497558139009_1_alg».proof.Proof.Gen.Pre_finite_inputs
import proofs.«103655_j5497558139009_1_alg».proof.Proof.ArrayValue
import proofs.«103655_j5497558139009_1_alg».proof.Proof.RefJoint

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its four results dropped, is its frame. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- From memories that agree on the arguments both programs end with the output at the projection of the joint
    activation, the activation array at the joint activation, and the two length vectors as launched. -/
theorem algebraic : Cert.algebraic_KernelIdeal_ReferenceIdeal := by
  intro m ρ m' ρ' _ hagree
  refine ⟨_, _, _, _, Cert.Joint.Arrays.run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  obtain ⟨r0, r1, r2, r3, rest⟩ := h c
  refine ⟨?_, r1.trans a1, r2.trans a3, ?_, rest⟩
  · rw [r0, Cert.ReferenceIdeal.Read.val_main_v14_eq, Cert.Joint.Ref.projection_eq, a0, a2, a4, a5, a6, a7, a8]
  · rw [r3, Cert.ReferenceIdeal.Read.val_main_v10_eq, Cert.Joint.Ref.activation_eq, a0, a2, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
